-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x4096x128 : Shape := ⟨3, ![16, 4096, 128]⟩
abbrev S_ : Shape := ⟨0, ![]⟩

class Facts : Prop where
  bcast_S_S16x4096x128 : S_.BroadcastsInDim S16x4096x128 (![] : Fin 0 → Fin S16x4096x128.rank)
  reducesTo_S16x4096x128_S_d0_1_2 : S16x4096x128.ReducesTo [0, 1, 2] S_
  h_S_ : 0 < S_.numel

variable [Facts]

def fn {F : FTy → Type} [FloatOps F] (main_arg0 : FVec F S16x4096x128 .f32) (main_arg1 : FVec F S16x4096x128 .f32) (main_arg2 : FVec F S16x4096x128 .f32) : IVec S_ 1 :=
  let main_v0 : FVec F S16x4096x128 .f32 := Host.absf main_arg0
  let main_cst : FVec F S_ .f32 := constant S_ .f32 0x7F800000#32
  let main_v1 : FVec F S16x4096x128 .f32 := broadcastInDim S16x4096x128 ![] bcast_S_S16x4096x128 main_cst
  let main_v2 : IVec S16x4096x128 1 := cmpf .olt main_v0 main_v1
  let main_c : IVec S_ 1 := constantI S_ 1 1#1
  let main_v3 : IVec S_ 1 := (fun x v => Host.reduce IntOp.andi x v reducesTo_S16x4096x128_S_d0_1_2 h_S_) main_v2 main_c
  let main_v4 : FVec F S16x4096x128 .f32 := Host.absf main_arg1
  let main_cst_0 : FVec F S_ .f32 := constant S_ .f32 0x7F800000#32
  let main_v5 : FVec F S16x4096x128 .f32 := broadcastInDim S16x4096x128 ![] bcast_S_S16x4096x128 main_cst_0
  let main_v6 : IVec S16x4096x128 1 := cmpf .olt main_v4 main_v5
  let main_c_1 : IVec S_ 1 := constantI S_ 1 1#1
  let main_v7 : IVec S_ 1 := (fun x v => Host.reduce IntOp.andi x v reducesTo_S16x4096x128_S_d0_1_2 h_S_) main_v6 main_c_1
  let main_v8 : IVec S_ 1 := andi main_v3 main_v7
  let main_v9 : FVec F S16x4096x128 .f32 := Host.absf main_arg2
  let main_cst_2 : FVec F S_ .f32 := constant S_ .f32 0x7F800000#32
  let main_v10 : FVec F S16x4096x128 .f32 := broadcastInDim S16x4096x128 ![] bcast_S_S16x4096x128 main_cst_2
  let main_v11 : IVec S16x4096x128 1 := cmpf .olt main_v9 main_v10
  let main_c_3 : IVec S_ 1 := constantI S_ 1 1#1
  let main_v12 : IVec S_ 1 := (fun x v => Host.reduce IntOp.andi x v reducesTo_S16x4096x128_S_d0_1_2 h_S_) main_v11 main_c_3
  let main_v13 : IVec S_ 1 := andi main_v8 main_v12
  main_v13
-- ==== Kernel.lean ====
abbrev S16x4096x128 : Shape := ⟨3, ![16, 4096, 128]⟩
abbrev S_ : Shape := ⟨0, ![]⟩
abbrev S1x512x128 : Shape := ⟨3, ![1, 512, 128]⟩
abbrev S1x4096x128 : Shape := ⟨3, ![1, 4096, 128]⟩
abbrev S1x512x4096 : Shape := ⟨3, ![1, 512, 4096]⟩
abbrev S1x512 : Shape := ⟨2, ![1, 512]⟩
abbrev S1x512x1 : Shape := ⟨3, ![1, 512, 1]⟩

abbrev nBuf : Space → Nat
  | .hbm => 10
  | .vmem => 8
  | .smem => 0
  | _ => 0

abbrev bufTy : (tb : Table) → Fin (tcTables nBuf tb) → BufTy
  | .hbm, ⟨0, _⟩ => ⟨S16x4096x128, .f32⟩
  | .hbm, ⟨1, _⟩ => ⟨S16x4096x128, .f32⟩
  | .hbm, ⟨2, _⟩ => ⟨S16x4096x128, .f32⟩
  | .hbm, ⟨3, _⟩ => ⟨S_, .f32⟩
  | .hbm, ⟨4, _⟩ => ⟨S16x4096x128, .f32⟩
  | .hbm, ⟨5, _⟩ => ⟨S16x4096x128, .f32⟩
  | .hbm, ⟨6, _⟩ => ⟨S16x4096x128, .bf16⟩
  | .hbm, ⟨7, _⟩ => ⟨S16x4096x128, .bf16⟩
  | .hbm, ⟨8, _⟩ => ⟨S16x4096x128, .bf16⟩
  | .hbm, ⟨9, _⟩ => ⟨S16x4096x128, .f32⟩
  | .local _ .vmem, ⟨0, _⟩ => ⟨S1x512x128, .bf16⟩
  | .local _ .vmem, ⟨1, _⟩ => ⟨S1x512x128, .bf16⟩
  | .local _ .vmem, ⟨2, _⟩ => ⟨S1x4096x128, .bf16⟩
  | .local _ .vmem, ⟨3, _⟩ => ⟨S1x4096x128, .bf16⟩
  | .local _ .vmem, ⟨4, _⟩ => ⟨S1x4096x128, .bf16⟩
  | .local _ .vmem, ⟨5, _⟩ => ⟨S1x4096x128, .bf16⟩
  | .local _ .vmem, ⟨6, _⟩ => ⟨S1x512x128, .f32⟩
  | .local _ .vmem, ⟨7, _⟩ => ⟨S1x512x128, .f32⟩
  | _, _ => ⟨S16x4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  bcast_S_S16x4096x128 : S_.BroadcastsInDim S16x4096x128 (![] : Fin 0 → Fin S16x4096x128.rank)
  bitsLt_bf16_f32 : FTy.bits .bf16 < FTy.bits .f32
  inb_S1x512x128_S1x512x128_0_0_0 : ∀ a, (![0, 0, 0] : Fin 3 → Nat) a + S1x512x128.size a ≤ S1x512x128.size a
  h_S1x512x128 : 0 < S1x512x128.numel
  shapeCasts_S1x512x128_S1x512x128 : S1x512x128.ShapeCasts S1x512x128
  inb_S1x4096x128_S1x4096x128_0_0_0 : ∀ a, (![0, 0, 0] : Fin 3 → Nat) a + S1x4096x128.size a ≤ S1x4096x128.size a
  h_S1x4096x128 : 0 < S1x4096x128.numel
  shapeCasts_S1x4096x128_S1x4096x128 : S1x4096x128.ShapeCasts S1x4096x128
  reduces_S1x512x4096_S1x512 : S1x512x4096.Reduces [2] S1x512
  shapeCasts_S1x512_S1x512x1 : S1x512.ShapeCasts S1x512x1
  broadcasts_S1x512x1_S1x512x4096 : S1x512x1.Broadcasts S1x512x4096
  broadcasts_S1x512x1_S1x512x128 : S1x512x1.Broadcasts S1x512x128
  dot_S1x512x128_S1x4096x128_S1x512x4096_2_2_1_1_0_0_wf : DotDims.WF S1x512x128 S1x4096x128 S1x512x4096 [2] [2] [1] [1] [0] [0]
  dot_S1x512x4096_S1x4096x128_S1x512x128_2_1_1_2_0_0_wf : DotDims.WF S1x512x4096 S1x4096x128 S1x512x128 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x128.size a ≤ S16x4096x128.size a
  hwx0_0 : ∀ i : grid0.Coords, EltTy.bits .bf16 = 32 ∨ (Rect.block (s := S16x4096x128) S1x512x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4096x128.size a ≤ S16x4096x128.size a
  hwx0_1 : ∀ i : grid0.Coords, EltTy.bits .bf16 = 32 ∨ (Rect.block (s := S16x4096x128) S1x4096x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x4096x128.size a ≤ S16x4096x128.size a
  hwx0_2 : ∀ i : grid0.Coords, EltTy.bits .bf16 = 32 ∨ (Rect.block (s := S16x4096x128) S1x4096x128.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x128.size a ≤ S16x4096x128.size a
  hwx0_3 : ∀ i : grid0.Coords, EltTy.bits .f32 = 32 ∨ (Rect.block (s := S16x4096x128) S1x512x128.size (cc0_transform_3 i) (hinb0_3 i)).WholeWords (EltTy.packing .f32)

variable [Facts₀]

def dot_S1x512x128_S1x4096x128_S1x512x4096_2_2_1_1_0_0 : DotDims S1x512x128 S1x4096x128 S1x512x4096 where
  lhsContracting := [2]
  rhsContracting := [2]
  lhsNonContracting := [1]
  rhsNonContracting := [1]
  lhsBatch := [0]
  rhsBatch := [0]
  wf := dot_S1x512x128_S1x4096x128_S1x512x4096_2_2_1_1_0_0_wf
def dot_S1x512x4096_S1x4096x128_S1x512x128_2_1_1_2_0_0 : DotDims S1x512x4096 S1x4096x128 S1x512x128 where
  lhsContracting := [2]
  rhsContracting := [1]
  lhsNonContracting := [1]
  rhsNonContracting := [2]
  lhsBatch := [0]
  rhsBatch := [0]
  wf := dot_S1x512x4096_S1x4096x128_S1x512x128_2_1_1_2_0_0_wf

abbrev win0_0 : Pipeline.Window sig grid0 :=
  Pipeline.Window.ofSpec (Memref.whole main_v2) S1x512x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1x4096x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x4096x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x512x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16x4096x128 : Shape := ⟨3, ![16, 4096, 128]⟩
abbrev S16x4096x4096 : Shape := ⟨3, ![16, 4096, 4096]⟩
abbrev S_ : Shape := ⟨0, ![]⟩
abbrev S16x4096 : Shape := ⟨2, ![16, 4096]⟩
abbrev S16x4096x1 : Shape := ⟨3, ![16, 4096, 1]⟩

abbrev nBuf : Space → Nat
  | .hbm => 22
  | .vmem => 0
  | .smem => 0
  | _ => 0

abbrev bufTy : (tb : Table) → Fin (tcTables nBuf tb) → BufTy
  | .hbm, ⟨0, _⟩ => ⟨S16x4096x128, .f32⟩
  | .hbm, ⟨1, _⟩ => ⟨S16x4096x128, .f32⟩
  | .hbm, ⟨2, _⟩ => ⟨S16x4096x128, .f32⟩
  | .hbm, ⟨3, _⟩ => ⟨S16x4096x4096, .f32⟩
  | .hbm, ⟨4, _⟩ => ⟨S_, .f32⟩
  | .hbm, ⟨5, _⟩ => ⟨S16x4096x4096, .f32⟩
  | .hbm, ⟨6, _⟩ => ⟨S16x4096x4096, .f32⟩
  | .hbm, ⟨7, _⟩ => ⟨S_, .f32⟩
  | .hbm, ⟨8, _⟩ => ⟨S16x4096, .f32⟩
  | .hbm, ⟨9, _⟩ => ⟨S_, .f32⟩
  | .hbm, ⟨10, _⟩ => ⟨S16x4096, .f32⟩
  | .hbm, ⟨11, _⟩ => ⟨S16x4096, .f32⟩
  | .hbm, ⟨12, _⟩ => ⟨S16x4096x1, .f32⟩
  | .hbm, ⟨13, _⟩ => ⟨S16x4096x4096, .f32⟩
  | .hbm, ⟨14, _⟩ => ⟨S16x4096x4096, .f32⟩
  | .hbm, ⟨15, _⟩ => ⟨S16x4096x4096, .f32⟩
  | .hbm, ⟨16, _⟩ => ⟨S_, .f32⟩
  | .hbm, ⟨17, _⟩ => ⟨S16x4096, .f32⟩
  | .hbm, ⟨18, _⟩ => ⟨S16x4096x1, .f32⟩
  | .hbm, ⟨19, _⟩ => ⟨S16x4096x4096, .f32⟩
  | .hbm, ⟨20, _⟩ => ⟨S16x4096x4096, .f32⟩
  | .hbm, ⟨21, _⟩ => ⟨S16x4096x128, .f32⟩
  | _, _ => ⟨S16x4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]

class Facts₀ : Prop where
  bcast_S_S16x4096x4096 : S_.BroadcastsInDim S16x4096x4096 (![] : Fin 0 → Fin S16x4096x4096.rank)
  reducesTo_S16x4096x4096_S16x4096_d2 : S16x4096x4096.ReducesTo [2] S16x4096
  h_S_ : 0 < S_.numel
  bcast_S_S16x4096 : S_.BroadcastsInDim S16x4096 (![] : Fin 0 → Fin S16x4096.rank)
  bcast_S16x4096_S16x4096x1_0_1 : S16x4096.BroadcastsInDim S16x4096x1 (![0, 1] : Fin 2 → Fin S16x4096x1.rank)
  bcast_S16x4096x1_S16x4096x4096_0_1_2 : S16x4096x1.BroadcastsInDim S16x4096x4096 (![0, 1, 2] : Fin 3 → Fin S16x4096x4096.rank)
  dot_S16x4096x128_S16x4096x128_S16x4096x4096_2_2_1_1_0_0_wf : DotDims.WF S16x4096x128 S16x4096x128 S16x4096x4096 [2] [2] [1] [1] [0] [0]
  dot_S16x4096x4096_S16x4096x128_S16x4096x128_2_1_1_2_0_0_wf : DotDims.WF S16x4096x4096 S16x4096x128 S16x4096x128 [2] [1] [1] [2] [0] [0]

variable [Facts₀]

def dot_S16x4096x128_S16x4096x128_S16x4096x4096_2_2_1_1_0_0 : DotDims S16x4096x128 S16x4096x128 S16x4096x4096 where
  lhsContracting := [2]
  rhsContracting := [2]
  lhsNonContracting := [1]
  rhsNonContracting := [1]
  lhsBatch := [0]
  rhsBatch := [0]
  wf := dot_S16x4096x128_S16x4096x128_S16x4096x4096_2_2_1_1_0_0_wf
def dot_S16x4096x4096_S16x4096x128_S16x4096x128_2_1_1_2_0_0 : DotDims S16x4096x4096 S16x4096x128 S16x4096x128 where
  lhsContracting := [2]
  rhsContracting := [1]
  lhsNonContracting := [1]
  rhsNonContracting := [2]
  lhsBatch := [0]
  rhsBatch := [0]
  wf := dot_S16x4096x4096_S16x4096x128_S16x4096x128_2_1_1_2_0_0_wf

class Facts : Prop extends Facts₀ where

variable [Facts]
-- ==== Proof.SoftmaxRows.lean ====
/-
  One row of attention over the extended reals. From a row of scores `s j` and a column of values `w j` the
  output element is the softmax-weighted sum of the column. Two arrangements are compared:
    * normalise last:  (∑ⱼ e^(sⱼ - M) · wⱼ) / (∑ⱼ e^(sⱼ - M)),
    * normalise first: ∑ⱼ (e^(sⱼ - M) / ∑ₗ e^(sₗ - M)) · wⱼ,
  where `M` is the maximum of the row (a fold of `max` from `-∞`). On a non-empty row of REAL scores `M` is real,
  every exponential is a positive real, the normaliser is a positive real, and the two arrangements are the same
  real number: division by a non-zero real distributes over a finite sum of reals. Over the infinities that
  distribution fails, which is why realness of the scores and values is asked.
  Also here: a scale factor may be applied to one operand before a contraction or to the contraction's result.
-/
import Idealize.ShloMosaic.PureOps.Ideal

noncomputable section

open scoped BigOperators

namespace Cert.Attn

open Idealize.ShloMosaic

/-- The inclusion of the reals in the extended reals commutes with finite sums. -/
theorem coe_sum {ι : Type*} (s : Finset ι) (f : ι → ℝ) : ((∑ i ∈ s, f i : ℝ) : EReal) = ∑ i ∈ s, (f i : EReal) := by
  classical
  refine Finset.induction_on s ?_ ?_
  · simp
  · intro a s ha ih
    rw [Finset.sum_insert ha, Finset.sum_insert ha, EReal.coe_add, ih]

/-- The row maximum: the fold of `max` from `-∞` over the row. -/
def rowMax {N : ℕ} (s : Fin N → EReal) : EReal := (Finset.univ : Finset (Fin N)).fold max ⊥ s

/-- On a non-empty row of real scores the row maximum is a real number: it is above the first score, hence not `-∞`,
    and every score and the starting value are below `+∞`, hence so is the fold. -/
theorem rowMax_real {N : ℕ} (hN : 0 < N) (s : Fin N → ℝ) : ∃ M : ℝ, rowMax (fun j => (s j : EReal)) = (M : EReal) := by
  have h1 : rowMax (fun j => (s j : EReal)) < ⊤ := by
    unfold rowMax
    rw [Finset.fold_max_lt]
    exact ⟨bot_lt_top, fun j _ => EReal.coe_lt_top _⟩
  have h2 : ⊥ < rowMax (fun j => (s j : EReal)) := by
    unfold rowMax
    rw [Finset.lt_fold_max]
    exact Or.inr ⟨⟨0, hN⟩, Finset.mem_univ _, EReal.bot_lt_coe _⟩
  exact ⟨(rowMax (fun j => (s j : EReal))).toReal, (EReal.coe_toReal h1.ne h2.ne').symm⟩

/-- Normalise last: the weighted sum of the column divided by the sum of the weights. -/
def normLast {N : ℕ} (s w : Fin N → EReal) : EReal :=
  Ideal.div (∑ j, Ideal.exp (s j - rowMax s) * w j) (∑ j, Ideal.exp (s j - rowMax s))

/-- Normalise first: each weight divided by the sum of the weights, then the weighted sum of the column. The maximum is
    taken once more against `-∞`, which changes nothing. -/
def normFirst {N : ℕ} (s w : Fin N → EReal) : EReal :=
  ∑ j, Ideal.div (Ideal.exp (s j - max ⊥ (rowMax s))) (∑ l, Ideal.exp (s l - max ⊥ (rowMax s))) * w j

/-- On a non-empty row of real scores and a column of real values the two arrangements agree. -/
theorem normLast_eq_normFirst {N : ℕ} (hN : 0 < N) (s w : Fin N → ℝ) :
    normLast (fun j => (s j : EReal)) (fun j => (w j : EReal)) = normFirst (fun j => (s j : EReal)) (fun j => (w j : EReal)) := by
  obtain ⟨M, hM⟩ := rowMax_real hN s
  unfold normLast normFirst
  rw [hM, max_eq_right (bot_le : (⊥ : EReal) ≤ (M : EReal))]
  -- every weight is the positive real e^(sⱼ - M)
  have he : ∀ j, Ideal.exp ((s j : EReal) - (M : EReal)) = ((Real.exp (s j - M) : ℝ) : EReal) := fun j => by
    rw [← EReal.coe_sub, Ideal.exp_coe]
  simp only [he]
  -- the normaliser is a positive real
  have hl : (∑ j : Fin N, ((Real.exp (s j - M) : ℝ) : EReal)) = ((∑ j : Fin N, Real.exp (s j - M) : ℝ) : EReal) :=
    (coe_sum _ _).symm
  have hpos : 0 < ∑ j : Fin N, Real.exp (s j - M) :=
    Finset.sum_pos (fun j _ => Real.exp_pos _) ⟨⟨0, hN⟩, Finset.mem_univ _⟩
  rw [hl]
  simp only [Ideal.div_coe hpos.ne']
  -- both sides are now sums and products of reals
  have hK : (∑ j : Fin N, ((Real.exp (s j - M) : ℝ) : EReal) * ((w j : ℝ) : EReal))
      = ((∑ j : Fin N, Real.exp (s j - M) * w j : ℝ) : EReal) := by
    rw [coe_sum]; exact Finset.sum_congr rfl fun j _ => (EReal.coe_mul _ _).symm
  have hR : (∑ j : Fin N, ((Real.exp (s j - M) : ℝ) : EReal) * ((1 / ∑ l : Fin N, Real.exp (s l - M) : ℝ) : EReal) * ((w j : ℝ) : EReal))
      = ((∑ j : Fin N, Real.exp (s j - M) * (1 / ∑ l : Fin N, Real.exp (s l - M)) * w j : ℝ) : EReal) := by
    rw [coe_sum]; exact Finset.sum_congr rfl fun j _ => by rw [EReal.coe_mul, EReal.coe_mul]
  rw [hK, hR, ← EReal.coe_mul, EReal.coe_eq_coe_iff, Finset.sum_mul]
  exact Finset.sum_congr rfl fun j _ => by ring

/-- A scale applied to the left operand before a contraction, over reals: the scaled contraction. -/
theorem scaleInside_coe {D : ℕ} (q k : Fin D → ℝ) (c : ℝ) :
    (∑ d, ((q d : EReal) * (c : EReal)) * (k d : EReal)) = (((∑ d, q d * k d) * c : ℝ) : EReal) := by
  rw [Finset.sum_mul, coe_sum]
  exact Finset.sum_congr rfl fun d _ => by rw [← EReal.coe_mul, ← EReal.coe_mul, mul_right_comm]

/-- A scale applied to the contraction's result, over reals: the same real. -/
theorem scaleOutside_coe {D : ℕ} (q k : Fin D → ℝ) (c : ℝ) :
    (∑ d, (q d : EReal) * (k d : EReal)) * (c : EReal) = (((∑ d, q d * k d) * c : ℝ) : EReal) := by
  have h : (∑ d, (q d : EReal) * (k d : EReal)) = ((∑ d, q d * k d : ℝ) : EReal) := by
    rw [coe_sum]; exact Finset.sum_congr rfl fun d _ => (EReal.coe_mul _ _).symm
  rw [h, ← EReal.coe_mul]

end Cert.Attn

end
-- ==== Proof.AttnSpec.lean ====
/-
  Attention over arrays of shape [16, 4096, 128], element by element, in two arrangements.
  Both take a query array `q`, a key array `k`, a value array `v` and a scale `c`, and at (b, n, d) form the row of
  scores of query row (b, n) against every key row (b, j), the softmax of that row, and the weighted sum of column d of
  the value rows (b, j):
    * `scaledFirst`: the scale multiplies the query entries before the contraction, and the softmax is normalised
      after the weighted sum;
    * `scaledLast`: the scale multiplies the contraction's result, and the softmax is normalised before the
      weighted sum.
  When every entry of q, k, v and the scale are real numbers the two agree: the scale moves across the finite sum
  of reals, and the normaliser (a positive real) moves across the weighted sum (SoftmaxRows).
-/
import Idealize.ShloMosaic.Lib.ValueIdx
import proofs.«427902_j45440753992364_3_alg».proof.Proof.SoftmaxRows

noncomputable section

open scoped BigOperators

namespace Cert.Attn

open Idealize.ShloMosaic Idealize.ShloMosaic.ValueIdx

/-- Arrays of extended reals of shape [16, 4096, 128]. -/
abbrev Arr : Type := (⟨3, ![16, 4096, 128]⟩ : Shape).Idx → EReal

/-- Scale inside the contraction, normalise last, at (b, n, d). -/
def scaledFirst (c : EReal) (q k v : Arr) (b : Fin 16) (n : Fin 4096) (d : Fin 128) : EReal :=
  normLast (fun j : Fin 4096 => ∑ e : Fin 128, (q (ix3 b n e) * c) * k (ix3 b j e)) (fun j : Fin 4096 => v (ix3 b j d))

/-- Scale outside the contraction, normalise first, at (b, n, d). -/
def scaledLast (c : EReal) (q k v : Arr) (b : Fin 16) (n : Fin 4096) (d : Fin 128) : EReal :=
  normFirst (fun j : Fin 4096 => (∑ e : Fin 128, q (ix3 b n e) * k (ix3 b j e)) * c) (fun j : Fin 4096 => v (ix3 b j d))

/-- With a real scale and real entries the two arrangements agree at every (b, n, d). -/
theorem scaledFirst_eq_scaledLast (c : EReal) (q k v : Arr) (hc : ∃ r : ℝ, c = (r : EReal))
    (hq : ∀ i, ∃ r : ℝ, q i = (r : EReal)) (hk : ∀ i, ∃ r : ℝ, k i = (r : EReal)) (hv : ∀ i, ∃ r : ℝ, v i = (r : EReal))
    (b : Fin 16) (n : Fin 4096) (d : Fin 128) : scaledFirst c q k v b n d = scaledLast c q k v b n d := by
  obtain ⟨cr, rfl⟩ := hc
  choose qr hq using hq
  choose kr hk using hk
  choose vr hv using hv
  unfold scaledFirst scaledLast
  -- each score is the same real number in both arrangements
  have hs1 : ∀ j : Fin 4096, (∑ e : Fin 128, (q (ix3 b n e) * (cr : EReal)) * k (ix3 b j e))
      = (((∑ e : Fin 128, qr (ix3 b n e) * kr (ix3 b j e)) * cr : ℝ) : EReal) := fun j => by
    simp only [hq, hk]
    exact scaleInside_coe (fun e : Fin 128 => qr (ix3 b n e)) (fun e : Fin 128 => kr (ix3 b j e)) cr
  have hs2 : ∀ j : Fin 4096, (∑ e : Fin 128, q (ix3 b n e) * k (ix3 b j e)) * (cr : EReal)
      = (((∑ e : Fin 128, qr (ix3 b n e) * kr (ix3 b j e)) * cr : ℝ) : EReal) := fun j => by
    simp only [hq, hk]
    exact scaleOutside_coe (fun e : Fin 128 => qr (ix3 b n e)) (fun e : Fin 128 => kr (ix3 b j e)) cr
  simp only [hs1, hs2, hv]
  exact normLast_eq_normFirst (by norm_num) (fun j : Fin 4096 => (∑ e : Fin 128, qr (ix3 b n e) * kr (ix3 b j e)) * cr)
    (fun j : Fin 4096 => vr (ix3 b j d))

/-- The first arrangement as a whole array. -/
def attnScaledFirst (c : EReal) (q k v : Arr) : Arr := fun i => scaledFirst c q k v (i 0) (i 1) (i 2)

/-- The second arrangement as a whole array. -/
def attnScaledLast (c : EReal) (q k v : Arr) : Arr := fun i => scaledLast c q k v (i 0) (i 1) (i 2)

/-- With a real scale and real entries the two whole arrays are equal. -/
theorem attnScaledFirst_eq_attnScaledLast (c : EReal) (q k v : Arr) (hc : ∃ r : ℝ, c = (r : EReal))
    (hq : ∀ i, ∃ r : ℝ, q i = (r : EReal)) (hk : ∀ i, ∃ r : ℝ, k i = (r : EReal)) (hv : ∀ i, ∃ r : ℝ, v i = (r : EReal)) :
    attnScaledFirst c q k v = attnScaledLast c q k v :=
  funext fun i => scaledFirst_eq_scaledLast c q k v hc hq hk hv (i 0) (i 1) (i 2)

end Cert.Attn

end
-- ==== Proof.ScaleConst.lean ====
/-
  The scale both programs multiply by is a finite float, so the extended real its pattern denotes is a real number
  (which real does not matter: both programs carry the same pattern).
-/
import Idealize.ShloMosaic.PureOps.Ideal

noncomputable section

namespace Cert.Attn

open Idealize.ShloMosaic

/-- The pattern of the scale denotes a real number. -/
theorem scale_real : ∃ r : ℝ, Ideal.ofBits .f32 0x3DB504F3#32 = (r : EReal) := by
  -- the exponent field is neither all ones nor zero, so the pattern denotes significand · 2^exponent
  have hex : ¬ ((0x3DB504F3#32 : BitVec 32).extractLsb' 23 8).toNat = 2 ^ 8 - 1 := by decide
  show ∃ r : ℝ, Ideal.ieee 8 23 (0x3DB504F3#32 : BitVec 32) = (r : EReal)
  unfold Ideal.ieee
  dsimp only
  rw [if_neg hex]
  split_ifs <;> exact ⟨_, rfl⟩

end Cert.Attn

end
-- ==== Proof.Finite.lean ====
/-
  What the precondition says: every entry of the three argument arrays is a real number.
  The precondition is the conjunction, over the three arrays, of "every entry's absolute value is below +∞". An extended
  real whose absolute value (the larger of x and -x) is below +∞ is neither +∞ nor -∞, hence a real number.
-/
import proofs.«427902_j45440753992364_3_alg».proof.Proof.Gen.Pre_finite_inputs
import Idealize.ShloMosaic.Lib.ReduceAll
import Idealize.ShloMosaic.Lib.ValueIdx
import Idealize.ShloMosaic.PureOps.Ideal

noncomputable section

namespace Cert.Attn.Finite

open Idealize.ShloMosaic Cert.Pre_finite_inputs

/-- The scalar shape has one index. -/
instance : Subsingleton S_.Idx := ⟨fun a b => funext fun d => d.elim0⟩

/-- The bound's pattern denotes `+∞`. -/
theorem posInf : Ideal.ofBits .f32 0x7F800000#32 = (⊤ : EReal) := by simp [Ideal.ofBits, Ideal.ieee]

/-- An extended real whose absolute value is below `+∞` is a real number. -/
theorem real_of_abs_lt_top (x : EReal) (h : max x (-x) < ⊤) : ∃ r : ℝ, x = (r : EReal) := by
  have h1 : x ≠ ⊤ := fun e => by subst e; simp at h
  have h2 : x ≠ ⊥ := fun e => by subst e; simp at h
  exact ⟨x.toReal, (EReal.coe_toReal h1 h2).symm⟩

/-- One array: if "every entry's absolute value is below +∞", reduced by `and` over the whole array, is true, then
    every entry is a real number. -/
theorem real_of_all (x : FVec Ideal S16x4096x128 .f32) (bc : S_.BroadcastsInDim S16x4096x128 (![] : Fin 0 → Fin S16x4096x128.rank))
    (hr : S16x4096x128.ReducesTo [0, 1, 2] S_) (hu : 0 < S_.numel)
    (e : Host.reduce IntOp.andi (cmpf .olt (Host.absf x) (broadcastInDim S16x4096x128 ![] bc (constant S_ .f32 0x7F800000#32)))
      (constantI S_ 1 1#1) hr hu ValueIdx.ix0 = 1#1)
    (i : S16x4096x128.Idx) : ∃ r : ℝ, x i = (r : EReal) := by
  have hi := Host.reduce_andi_all _ _ hr hu ValueIdx.ix0 e i
  have h' : BitVec.ofBool (decide (max (x i : EReal) (-(x i : EReal)) < Ideal.ofBits .f32 0x7F800000#32)) = 1#1 := hi
  rw [posInf] at h'
  have hlt : max (x i : EReal) (-(x i : EReal)) < ⊤ := by
    by_contra hn
    rw [decide_eq_false hn] at h'
    exact absurd h' (by decide)
  exact real_of_abs_lt_top _ hlt

/-- The precondition gives: every entry of each of the three arrays is a real number. -/
theorem real_of_pre (a0 a1 a2 : FVec Ideal S16x4096x128 .f32) (h : fn (F := Ideal) a0 a1 a2 = fun _ => 1#1) :
    (∀ i, ∃ r : ℝ, a0 i = (r : EReal)) ∧ (∀ i, ∃ r : ℝ, a1 i = (r : EReal)) ∧ (∀ i, ∃ r : ℝ, a2 i = (r : EReal)) := by
  have h0 : fn (F := Ideal) a0 a1 a2 ValueIdx.ix0 = 1#1 := congrFun h ValueIdx.ix0
  dsimp only [fn] at h0
  change IntOp.andi (IntOp.andi _ _) _ = 1#1 at h0
  obtain ⟨h01, h2⟩ := IntOp.andi_eq_one.1 h0
  obtain ⟨h00, h1⟩ := IntOp.andi_eq_one.1 h01
  exact ⟨real_of_all a0 _ _ _ h00, real_of_all a1 _ _ _ h1, real_of_all a2 _ _ _ h2⟩

end Cert.Attn.Finite

end
-- ==== Proof.LibRowsRank3.lean ====
/-
  A kernel's vector operations on a block of shape [m, a, b] (m stacked matrices of a rows and b columns) read at an
  index, at the extended reals: the sum and the maximum of each row (a reduction over the last axis, the kernel's and the host's), a matrix of row
  values [m, a] viewed as a stack of columns [m, a, 1], and such a column stack broadcast along the rows to [m, a, b].
  Stated for any extents m, a, b.
-/
import Idealize.ShloMosaic.PureOps.Ideal
import Idealize.ShloMosaic.PureOps.Ideal.Laws
import Idealize.ShloMosaic.Lib.ValueIdx
import Idealize.ShloMosaic.Lib.Pipeline.Value

noncomputable section

open scoped BigOperators

namespace Cert.LibRowsRank3

open Idealize.ShloMosaic Idealize.ShloMosaic.ValueIdx

/-- The row index (u, p) with the column coordinate k inserted on the last axis is (u, p, k). -/
theorem lift_last {m a b : ℕ} (h : (⟨3, ![m, a, b]⟩ : Shape).Reduces [2] ⟨2, ![m, a]⟩) (u : Fin m) (p : Fin a) (k : Fin b) :
    h.lift (ix2 u p) k = ix3 u p k := by
  funext c
  match c with
  | ⟨0, _⟩ => exact Fin.ext rfl
  | ⟨1, _⟩ => exact Fin.ext rfl
  | ⟨2, _⟩ => exact Fin.ext rfl

/-- The sum over the last axis of an [m, a, b] block, read at row (u, p): the sum of the row's b entries. -/
theorem multiReduction_add_last_apply {m a b : ℕ} {φ : FTy} (src : FVec Ideal ⟨3, ![m, a, b]⟩ φ) (acc : BitVec φ.bits)
    (h : (⟨3, ![m, a, b]⟩ : Shape).Reduces [2] ⟨2, ![m, a]⟩) (hφ : FKind.Formats φ) (hacc : acc = FKind.add.neutral φ hφ)
    (u : Fin m) (p : Fin a) :
    multiReduction .add [2] ⟨2, ![m, a]⟩ src acc h hφ hacc (ix2 u p) = ∑ k : Fin b, src (ix3 u p k) := by
  -- a reduction over one axis is the sum over that axis's coordinates of the source at the index with the coordinate inserted
  refine (Ideal.multiReduction_add_single src acc h hφ hacc (ix2 u p)).trans ?_
  show ∑ k : Fin b, src (h.lift (ix2 u p) k) = ∑ k : Fin b, src (ix3 u p k)
  exact Finset.sum_congr rfl fun k _ => congrArg src (lift_last h u p k)

/-- The maximum over the last axis of an [m, a, b] block, read at row (u, p): the fold of `max`, from the value the
    accumulator's pattern denotes, over the row's b entries. -/
theorem multiReduction_max_last_apply {m a b : ℕ} {φ : FTy} (src : FVec Ideal ⟨3, ![m, a, b]⟩ φ) (acc : BitVec φ.bits)
    (h : (⟨3, ![m, a, b]⟩ : Shape).Reduces [2] ⟨2, ![m, a]⟩) (hφ : FKind.Formats φ) (hacc : acc = FKind.maximumf.neutral φ hφ)
    (u : Fin m) (p : Fin a) :
    multiReduction .maximumf [2] ⟨2, ![m, a]⟩ src acc h hφ hacc (ix2 u p)
      = (Finset.univ : Finset (Fin b)).fold max (Ideal.ofBits φ acc) (fun k => src (ix3 u p k)) := by
  refine (Ideal.multiReduction_maximumf_single src acc h hφ hacc (ix2 u p)).trans ?_
  show (Finset.univ : Finset (Fin b)).fold max (Ideal.ofBits φ acc) (src ∘ h.lift (ix2 u p)) = _
  exact congrArg (fun f => Finset.fold max (Ideal.ofBits φ acc) f (Finset.univ : Finset (Fin b)))
    (funext fun k => congrArg src (lift_last h u p k))

/-- The host's reduction with a maximum body over the last axis of an [m, a, b] array, read at row (u, p): the fold of
    `max`, from the initial value, over the row's b entries. -/
theorem hostReduce_max_last_apply {m a b : ℕ} {φ : FTy} (x : FVec Ideal ⟨3, ![m, a, b]⟩ φ) (init : FVec Ideal ⟨0, ![]⟩ φ)
    (h' : (⟨3, ![m, a, b]⟩ : Shape).ReducesTo [2] ⟨2, ![m, a]⟩) (h : (⟨3, ![m, a, b]⟩ : Shape).Reduces [2] ⟨2, ![m, a]⟩)
    (hu : 0 < (⟨0, ![]⟩ : Shape).numel) (u : Fin m) (p : Fin a) :
    Host.reduce FloatOps.maximumf x init h' hu (ix2 u p)
      = (Finset.univ : Finset (Fin b)).fold max (init (Shape.Idx.first hu)) (fun k => x (ix3 u p k)) := by
  rw [Host.reduce_eq_fold_single FloatOps.maximumf x init h' h hu]
  exact congrArg (fun f => Finset.fold max (init (Shape.Idx.first hu)) f (Finset.univ : Finset (Fin b)))
    (funext fun k => congrArg x (lift_last h u p k))

/-- A matrix stack [m, a] of row values viewed as a stack of columns [m, a, 1] reads the row's value. -/
theorem shapeCast_col_apply {m a : ℕ} {α : Type} (v : (⟨2, ![m, a]⟩ : Shape).Idx → α)
    (h : (⟨2, ![m, a]⟩ : Shape).ShapeCasts ⟨3, ![m, a, 1]⟩) (u : Fin m) (p : Fin a) (z : Fin 1) :
    shapeCast ⟨3, ![m, a, 1]⟩ v h (ix3 u p z) = v (ix2 u p) :=
  -- both indices have the row-major position u * a + p
  shapeCast_apply v h _ _ (by
    have hz : z.val = 0 := by omega
    rw [Shape.rowMajor_val_two, Shape.rowMajor_val_three]
    show u.val * a + p.val = (u.val * a + p.val) * 1 + z.val
    rw [hz, Nat.mul_one, Nat.add_zero])

/-- A stack of columns [m, a, 1] broadcast along the rows to [m, a, b] reads the row's column entry. -/
theorem broadcastTo_col_apply {m a b : ℕ} {α : Type} (v : (⟨3, ![m, a, 1]⟩ : Shape).Idx → α)
    (h : (⟨3, ![m, a, 1]⟩ : Shape).Broadcasts ⟨3, ![m, a, b]⟩) (u : Fin m) (p : Fin a) (k : Fin b) :
    broadcastTo ⟨3, ![m, a, b]⟩ v h (ix3 u p k) = v (ix3 u p (0 : Fin 1)) := by
  -- the two leading axes keep their coordinates (which are 0 anyway where the extent is 1); the unit axis reads 0
  refine broadcastTo_apply v h (ix3 u p k) (ix3 u p (0 : Fin 1)) fun ax => ?_
  match ax with
  | ⟨0, _⟩ =>
    show u.val = if m = 1 then 0 else u.val
    split
    · have := u.isLt; omega
    · rfl
  | ⟨1, _⟩ =>
    show p.val = if a = 1 then 0 else p.val
    split
    · have := p.isLt; omega
    · rfl
  | ⟨2, _⟩ => rfl

end Cert.LibRowsRank3

end
-- ==== Proof.KernelBlock.lean ====
/-
  What the kernel body computes from its three loaded blocks, read at one element.
  The body loads a block `x0` of 512 query rows, and the whole head's key rows `x1` and value rows `x2` (4096 each, 128
  wide). It forms the 512 × 4096 scores (each query row against each key row, a contraction over the 128 lanes), takes
  each score row's maximum, exponentiates score minus maximum, sums each row of exponentials, multiplies the exponentials
  into the value rows (a contraction over the 4096 keys) and divides by the row sums. Read at (u, p, d) that is the
  "normalise last" softmax-weighted sum of SoftmaxRows over the score row of query row p and column d of the values.
  The changes of float format in the body are the identity on extended reals.
-/
import proofs.«427902_j45440753992364_3_alg».proof.Proof.Gen.KernelIdeal.Skeleton
import proofs.«427902_j45440753992364_3_alg».proof.Proof.SoftmaxRows
import proofs.«427902_j45440753992364_3_alg».proof.Proof.LibRowsRank3
import Idealize.ShloMosaic.PureOps.Ideal.Laws
import Idealize.ShloMosaic.Lib.ValueIdx
import Idealize.ShloMosaic.Lib.Pipeline.Value

noncomputable section

open scoped BigOperators

namespace Cert.Attn.Block

open Cert.KernelIdeal Cert.KernelIdeal.Gen Idealize.ShloMosaic Idealize.ShloMosaic.ValueIdx Cert.LibRowsRank3

/-! ## The two contractions' operand indices, axis by axis -/

theorem qk_lhs_0 (i : S1x512x4096.Idx) (q : dot_S1x512x128_S1x4096x128_S1x512x4096_2_2_1_1_0_0.contr.Idx) :
    (dot_S1x512x128_S1x4096x128_S1x512x4096_2_2_1_1_0_0.lhsIdx i q 0).val = (i 0).val := by
  unfold DotDims.lhsIdx
  rw [dif_pos (show (0 : Fin S1x512x128.rank) ∈ dot_S1x512x128_S1x4096x128_S1x512x4096_2_2_1_1_0_0.lhsBatch by decide)]
  rfl
theorem qk_lhs_1 (i : S1x512x4096.Idx) (q : dot_S1x512x128_S1x4096x128_S1x512x4096_2_2_1_1_0_0.contr.Idx) :
    (dot_S1x512x128_S1x4096x128_S1x512x4096_2_2_1_1_0_0.lhsIdx i q 1).val = (i 1).val := by
  unfold DotDims.lhsIdx
  rw [dif_neg (show ¬(1 : Fin S1x512x128.rank) ∈ dot_S1x512x128_S1x4096x128_S1x512x4096_2_2_1_1_0_0.lhsBatch by decide), dif_pos (show (1 : Fin S1x512x128.rank) ∈ dot_S1x512x128_S1x4096x128_S1x512x4096_2_2_1_1_0_0.lhsNonContracting by decide)]
  rfl
theorem qk_lhs_2 (i : S1x512x4096.Idx) (q : dot_S1x512x128_S1x4096x128_S1x512x4096_2_2_1_1_0_0.contr.Idx) :
    (dot_S1x512x128_S1x4096x128_S1x512x4096_2_2_1_1_0_0.lhsIdx i q 2).val = (q ⟨0, by decide⟩).val :=
  dot_S1x512x128_S1x4096x128_S1x512x4096_2_2_1_1_0_0.lhsIdx_val_of_single rfl i q
theorem qk_rhs_0 (i : S1x512x4096.Idx) (q : dot_S1x512x128_S1x4096x128_S1x512x4096_2_2_1_1_0_0.contr.Idx) :
    (dot_S1x512x128_S1x4096x128_S1x512x4096_2_2_1_1_0_0.rhsIdx i q 0).val = (i 0).val := by
  unfold DotDims.rhsIdx
  rw [dif_pos (show (0 : Fin S1x4096x128.rank) ∈ dot_S1x512x128_S1x4096x128_S1x512x4096_2_2_1_1_0_0.rhsBatch by decide)]
  rfl
theorem qk_rhs_1 (i : S1x512x4096.Idx) (q : dot_S1x512x128_S1x4096x128_S1x512x4096_2_2_1_1_0_0.contr.Idx) :
    (dot_S1x512x128_S1x4096x128_S1x512x4096_2_2_1_1_0_0.rhsIdx i q 1).val = (i 2).val := by
  unfold DotDims.rhsIdx
  rw [dif_neg (show ¬(1 : Fin S1x4096x128.rank) ∈ dot_S1x512x128_S1x4096x128_S1x512x4096_2_2_1_1_0_0.rhsBatch by decide), dif_pos (show (1 : Fin S1x4096x128.rank) ∈ dot_S1x512x128_S1x4096x128_S1x512x4096_2_2_1_1_0_0.rhsNonContracting by decide)]
  rfl
theorem qk_rhs_2 (i : S1x512x4096.Idx) (q : dot_S1x512x128_S1x4096x128_S1x512x4096_2_2_1_1_0_0.contr.Idx) :
    (dot_S1x512x128_S1x4096x128_S1x512x4096_2_2_1_1_0_0.rhsIdx i q 2).val = (q ⟨0, by decide⟩).val :=
  dot_S1x512x128_S1x4096x128_S1x512x4096_2_2_1_1_0_0.rhsIdx_val_of_single rfl i q

theorem pv_lhs_0 (i : S1x512x128.Idx) (q : dot_S1x512x4096_S1x4096x128_S1x512x128_2_1_1_2_0_0.contr.Idx) :
    (dot_S1x512x4096_S1x4096x128_S1x512x128_2_1_1_2_0_0.lhsIdx i q 0).val = (i 0).val := by
  unfold DotDims.lhsIdx
  rw [dif_pos (show (0 : Fin S1x512x4096.rank) ∈ dot_S1x512x4096_S1x4096x128_S1x512x128_2_1_1_2_0_0.lhsBatch by decide)]
  rfl
theorem pv_lhs_1 (i : S1x512x128.Idx) (q : dot_S1x512x4096_S1x4096x128_S1x512x128_2_1_1_2_0_0.contr.Idx) :
    (dot_S1x512x4096_S1x4096x128_S1x512x128_2_1_1_2_0_0.lhsIdx i q 1).val = (i 1).val := by
  unfold DotDims.lhsIdx
  rw [dif_neg (show ¬(1 : Fin S1x512x4096.rank) ∈ dot_S1x512x4096_S1x4096x128_S1x512x128_2_1_1_2_0_0.lhsBatch by decide), dif_pos (show (1 : Fin S1x512x4096.rank) ∈ dot_S1x512x4096_S1x4096x128_S1x512x128_2_1_1_2_0_0.lhsNonContracting by decide)]
  rfl
theorem pv_lhs_2 (i : S1x512x128.Idx) (q : dot_S1x512x4096_S1x4096x128_S1x512x128_2_1_1_2_0_0.contr.Idx) :
    (dot_S1x512x4096_S1x4096x128_S1x512x128_2_1_1_2_0_0.lhsIdx i q 2).val = (q ⟨0, by decide⟩).val :=
  dot_S1x512x4096_S1x4096x128_S1x512x128_2_1_1_2_0_0.lhsIdx_val_of_single rfl i q
theorem pv_rhs_0 (i : S1x512x128.Idx) (q : dot_S1x512x4096_S1x4096x128_S1x512x128_2_1_1_2_0_0.contr.Idx) :
    (dot_S1x512x4096_S1x4096x128_S1x512x128_2_1_1_2_0_0.rhsIdx i q 0).val = (i 0).val := by
  unfold DotDims.rhsIdx
  rw [dif_pos (show (0 : Fin S1x4096x128.rank) ∈ dot_S1x512x4096_S1x4096x128_S1x512x128_2_1_1_2_0_0.rhsBatch by decide)]
  rfl
theorem pv_rhs_1 (i : S1x512x128.Idx) (q : dot_S1x512x4096_S1x4096x128_S1x512x128_2_1_1_2_0_0.contr.Idx) :
    (dot_S1x512x4096_S1x4096x128_S1x512x128_2_1_1_2_0_0.rhsIdx i q 1).val = (q ⟨0, by decide⟩).val :=
  dot_S1x512x4096_S1x4096x128_S1x512x128_2_1_1_2_0_0.rhsIdx_val_of_single rfl i q
theorem pv_rhs_2 (i : S1x512x128.Idx) (q : dot_S1x512x4096_S1x4096x128_S1x512x128_2_1_1_2_0_0.contr.Idx) :
    (dot_S1x512x4096_S1x4096x128_S1x512x128_2_1_1_2_0_0.rhsIdx i q 2).val = (i 2).val := by
  unfold DotDims.rhsIdx
  rw [dif_neg (show ¬(2 : Fin S1x4096x128.rank) ∈ dot_S1x512x4096_S1x4096x128_S1x512x128_2_1_1_2_0_0.rhsBatch by decide), dif_pos (show (2 : Fin S1x4096x128.rank) ∈ dot_S1x512x4096_S1x4096x128_S1x512x128_2_1_1_2_0_0.rhsNonContracting by decide)]
  rfl

/-! ## The two contractions read at an index -/

/-- Query rows against key rows into a zero accumulator, at (u, p, j): the sum over the 128 lanes of query row p times
    key row j. -/
theorem queryKey_apply (l : FVec Ideal S1x512x128 .bf16) (r : FVec Ideal S1x4096x128 .bf16) (u : Fin 1) (p : Fin 512) (j : Fin 4096) :
    matmul dot_S1x512x128_S1x4096x128_S1x512x4096_2_2_1_1_0_0 none l r (constant S1x512x4096 .f32 0x00000000#32) (ix3 u p j)
      = ∑ e : Fin 128, l (ix3 u p e) * r (ix3 u j e) := by
  refine (Ideal.matmul_constant_zero_apply dot_S1x512x128_S1x4096x128_S1x512x4096_2_2_1_1_0_0 none l r (ix3 u p j)).trans ?_
  rw [← Equiv.sum_comp (ValueIdx.contrEquiv1 dot_S1x512x128_S1x4096x128_S1x512x4096_2_2_1_1_0_0 128 rfl rfl).symm]
  refine Finset.sum_congr rfl fun e _ => ?_
  have hk := ValueIdx.contrEquiv1_symm_val dot_S1x512x128_S1x4096x128_S1x512x4096_2_2_1_1_0_0 128 rfl rfl e
  have el : dot_S1x512x128_S1x4096x128_S1x512x4096_2_2_1_1_0_0.lhsIdx (ix3 u p j) ((ValueIdx.contrEquiv1 dot_S1x512x128_S1x4096x128_S1x512x4096_2_2_1_1_0_0 128 rfl rfl).symm e) = ix3 u p e := funext fun a => Fin.ext (by
    match a with
    | ⟨0, _⟩ => exact qk_lhs_0 _ _
    | ⟨1, _⟩ => exact qk_lhs_1 _ _
    | ⟨2, _⟩ => exact (qk_lhs_2 _ _).trans hk)
  have er : dot_S1x512x128_S1x4096x128_S1x512x4096_2_2_1_1_0_0.rhsIdx (ix3 u p j) ((ValueIdx.contrEquiv1 dot_S1x512x128_S1x4096x128_S1x512x4096_2_2_1_1_0_0 128 rfl rfl).symm e) = ix3 u j e := funext fun a => Fin.ext (by
    match a with
    | ⟨0, _⟩ => exact qk_rhs_0 _ _
    | ⟨1, _⟩ => exact qk_rhs_1 _ _
    | ⟨2, _⟩ => exact (qk_rhs_2 _ _).trans hk)
  rw [el, er]

/-- Weights against value rows into a zero accumulator, at (u, p, d): the sum over the 4096 keys of weight (p, j) times
    entry d of value row j. -/
theorem weightsValue_apply (l : FVec Ideal S1x512x4096 .bf16) (r : FVec Ideal S1x4096x128 .bf16) (u : Fin 1) (p : Fin 512) (d : Fin 128) :
    matmul dot_S1x512x4096_S1x4096x128_S1x512x128_2_1_1_2_0_0 none l r (constant S1x512x128 .f32 0x00000000#32) (ix3 u p d)
      = ∑ j : Fin 4096, l (ix3 u p j) * r (ix3 u j d) := by
  refine (Ideal.matmul_constant_zero_apply dot_S1x512x4096_S1x4096x128_S1x512x128_2_1_1_2_0_0 none l r (ix3 u p d)).trans ?_
  rw [← Equiv.sum_comp (ValueIdx.contrEquiv1 dot_S1x512x4096_S1x4096x128_S1x512x128_2_1_1_2_0_0 4096 rfl rfl).symm]
  refine Finset.sum_congr rfl fun j _ => ?_
  have hk := ValueIdx.contrEquiv1_symm_val dot_S1x512x4096_S1x4096x128_S1x512x128_2_1_1_2_0_0 4096 rfl rfl j
  have el : dot_S1x512x4096_S1x4096x128_S1x512x128_2_1_1_2_0_0.lhsIdx (ix3 u p d) ((ValueIdx.contrEquiv1 dot_S1x512x4096_S1x4096x128_S1x512x128_2_1_1_2_0_0 4096 rfl rfl).symm j) = ix3 u p j := funext fun a => Fin.ext (by
    match a with
    | ⟨0, _⟩ => exact pv_lhs_0 _ _
    | ⟨1, _⟩ => exact pv_lhs_1 _ _
    | ⟨2, _⟩ => exact (pv_lhs_2 _ _).trans hk)
  have er : dot_S1x512x4096_S1x4096x128_S1x512x128_2_1_1_2_0_0.rhsIdx (ix3 u p d) ((ValueIdx.contrEquiv1 dot_S1x512x4096_S1x4096x128_S1x512x128_2_1_1_2_0_0 4096 rfl rfl).symm j) = ix3 u j d := funext fun a => Fin.ext (by
    match a with
    | ⟨0, _⟩ => exact pv_rhs_0 _ _
    | ⟨1, _⟩ => exact (pv_rhs_1 _ _).trans hk
    | ⟨2, _⟩ => exact pv_rhs_2 _ _)
  rw [el, er]

/-! ## The body's stages -/

/-- The pattern the row maximum starts from denotes `-∞`. -/
theorem negInf : Ideal.ofBits .f32 0xFF800000#32 = (⊥ : EReal) := by simp [Ideal.ofBits, Ideal.ieee]

/-- The block's scores: every query row against every key row. -/
def blockScores (x0 : FVec Ideal S1x512x128 .bf16) (x1 : FVec Ideal S1x4096x128 .bf16) : FVec Ideal S1x512x4096 .f32 :=
  matmul dot_S1x512x128_S1x4096x128_S1x512x4096_2_2_1_1_0_0 none (shapeCast S1x512x128 x0 shapeCasts_S1x512x128_S1x512x128)
    (shapeCast S1x4096x128 x1 shapeCasts_S1x4096x128_S1x4096x128) (constant S1x512x4096 .f32 0x00000000#32)

/-- The block's weights: the exponential of each score minus its row's maximum. -/
def blockWeights (s : FVec Ideal S1x512x4096 .f32) : FVec Ideal S1x512x4096 .f32 :=
  exp (subf s (broadcastTo S1x512x4096 (shapeCast S1x512x1 (multiReduction .maximumf [2] S1x512 s 0xFF800000#32 reduces_S1x512x4096_S1x512 (.inl rfl) rfl) shapeCasts_S1x512_S1x512x1) broadcasts_S1x512x1_S1x512x4096))

/-- The body's stored value is the weights times the value rows, divided by the row sums of the weights. -/
theorem pay_eq (x0 : FVec Ideal S1x512x128 .bf16) (x1 x2 : FVec Ideal S1x4096x128 .bf16) :
    k0_pay1 (F := Ideal) x0 x1 x2
      = divf (matmul dot_S1x512x4096_S1x4096x128_S1x512x128_2_1_1_2_0_0 none (truncf .bf16 (blockWeights (blockScores x0 x1)) bitsLt_bf16_f32)
            (shapeCast S1x4096x128 x2 shapeCasts_S1x4096x128_S1x4096x128) (constant S1x512x128 .f32 0x00000000#32))
          (broadcastTo S1x512x128 (shapeCast S1x512x1 (multiReduction .add [2] S1x512 (blockWeights (blockScores x0 x1)) 0x00000000#32 reduces_S1x512x4096_S1x512 (.inl rfl) rfl) shapeCasts_S1x512_S1x512x1) broadcasts_S1x512x1_S1x512x128) := rfl

theorem blockScores_apply (x0 : FVec Ideal S1x512x128 .bf16) (x1 : FVec Ideal S1x4096x128 .bf16) (u : Fin 1) (p : Fin 512) (j : Fin 4096) :
    blockScores x0 x1 (ix3 u p j) = ∑ e : Fin 128, x0 (ix3 u p e) * x1 (ix3 u j e) := by
  unfold blockScores
  rw [shapeCast_self, shapeCast_self]
  exact queryKey_apply x0 x1 u p j

/-- A weight at (u, p, j): the exponential of the score there minus the maximum of score row p. -/
theorem blockWeights_apply (s : FVec Ideal S1x512x4096 .f32) (u : Fin 1) (p : Fin 512) (j : Fin 4096) :
    blockWeights s (ix3 u p j) = Ideal.exp (s (ix3 u p j) - Cert.Attn.rowMax (fun l : Fin 4096 => s (ix3 u p l))) := by
  have hmax : broadcastTo S1x512x4096 (shapeCast S1x512x1 (multiReduction .maximumf [2] S1x512 s 0xFF800000#32 reduces_S1x512x4096_S1x512 (.inl rfl) rfl) shapeCasts_S1x512_S1x512x1) broadcasts_S1x512x1_S1x512x4096 (ix3 u p j)
      = Cert.Attn.rowMax (fun l : Fin 4096 => s (ix3 u p l)) :=
    (broadcastTo_col_apply _ _ u p j).trans ((shapeCast_col_apply _ _ u p 0).trans
      ((multiReduction_max_last_apply s _ _ _ _ u p).trans (by rw [negInf]; rfl)))
  exact congrArg (fun x => Ideal.exp (s (ix3 u p j) - x)) hmax

/-! ## The stored value at an element -/

/-- The body's stored value at (u, p, d): the softmax of score row p, normalised last, weighting column d of the values. -/
theorem pay_apply (x0 : FVec Ideal S1x512x128 .bf16) (x1 x2 : FVec Ideal S1x4096x128 .bf16) (u : Fin 1) (p : Fin 512) (d : Fin 128) :
    k0_pay1 (F := Ideal) x0 x1 x2 (ix3 u p d)
      = Cert.Attn.normLast (fun j : Fin 4096 => ∑ e : Fin 128, x0 (ix3 u p e) * x1 (ix3 u j e)) (fun j : Fin 4096 => x2 (ix3 u j d)) := by
  rw [pay_eq]
  have hW : ∀ j : Fin 4096, blockWeights (blockScores x0 x1) (ix3 u p j)
      = Ideal.exp ((∑ e : Fin 128, x0 (ix3 u p e) * x1 (ix3 u j e))
          - Cert.Attn.rowMax (fun l : Fin 4096 => ∑ e : Fin 128, x0 (ix3 u p e) * x1 (ix3 u l e))) := fun j => by
    rw [blockWeights_apply]
    simp only [blockScores_apply]
  have hnum : matmul dot_S1x512x4096_S1x4096x128_S1x512x128_2_1_1_2_0_0 none (truncf .bf16 (blockWeights (blockScores x0 x1)) bitsLt_bf16_f32)
        (shapeCast S1x4096x128 x2 shapeCasts_S1x4096x128_S1x4096x128) (constant S1x512x128 .f32 0x00000000#32) (ix3 u p d)
      = ∑ j : Fin 4096, Ideal.exp ((∑ e : Fin 128, x0 (ix3 u p e) * x1 (ix3 u j e))
          - Cert.Attn.rowMax (fun l : Fin 4096 => ∑ e : Fin 128, x0 (ix3 u p e) * x1 (ix3 u l e))) * x2 (ix3 u j d) := by
    rw [shapeCast_self]
    refine (weightsValue_apply _ x2 u p d).trans ?_
    exact Finset.sum_congr rfl fun j _ => congrArg (· * x2 (ix3 u j d)) (hW j)
  have hden : broadcastTo S1x512x128 (shapeCast S1x512x1 (multiReduction .add [2] S1x512 (blockWeights (blockScores x0 x1)) 0x00000000#32 reduces_S1x512x4096_S1x512 (.inl rfl) rfl) shapeCasts_S1x512_S1x512x1) broadcasts_S1x512x1_S1x512x128 (ix3 u p d)
      = ∑ j : Fin 4096, Ideal.exp ((∑ e : Fin 128, x0 (ix3 u p e) * x1 (ix3 u j e))
          - Cert.Attn.rowMax (fun l : Fin 4096 => ∑ e : Fin 128, x0 (ix3 u p e) * x1 (ix3 u l e))) :=
    (broadcastTo_col_apply _ _ u p d).trans ((shapeCast_col_apply _ _ u p 0).trans
      ((multiReduction_add_last_apply _ _ _ _ _ u p).trans (Finset.sum_congr rfl fun j _ => hW j)))
  exact congrArg₂ Ideal.div hnum hden

end Cert.Attn.Block

end
-- ==== Proof.KernelArray.lean ====
/-
  The kernel's result array after the run, as one function of the three argument arrays.
  Before the launch the host multiplies the query array by the scale (and changes float formats, the identity on extended
  reals). Grid point t = 8·b + i stages query rows 512·i … 512·i + 511 of head b and all 4096 key rows and value rows of
  head b, and writes back output rows 512·i … 512·i + 511 of head b. The body's stored block (KernelBlock) read through these
  blocks is the block of the "scale first, normalise last" arrangement of AttnSpec; the 128 output blocks tile the
  result array, so the array ends holding that arrangement of the arguments.
-/
import proofs.«427902_j45440753992364_3_alg».proof.Proof.Gen.KernelIdeal.Value
import proofs.«427902_j45440753992364_3_alg».proof.Proof.KernelBlock
import proofs.«427902_j45440753992364_3_alg».proof.Proof.AttnSpec
import Idealize.ShloMosaic.Lib.Pipeline.Value
import Idealize.ShloMosaic.Lib.StableHlo.Run
import Idealize.ShloMosaic.Lib.Tactic

noncomputable section

open scoped BigOperators

namespace Cert.Attn.Kernel

open Cert.KernelIdeal Cert.KernelIdeal.Gen Cert.KernelIdeal.Value Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

/-- The scale, as the extended real its pattern denotes. -/
abbrev scaleC : EReal := Ideal.ofBits .f32 0x3DB504F3#32

/-- The three argument arrays as launched on core c. -/
abbrev argQ (c : Dev nD) : Cert.Attn.Arr := m ((c : Thread nD τ).loc main_arg0)
abbrev argK (c : Dev nD) : Cert.Attn.Arr := m ((c : Thread nD τ).loc main_arg1)
abbrev argV (c : Dev nD) : Cert.Attn.Arr := m ((c : Thread nD τ).loc main_arg2)

theorem hz : (![0, 0, 0] : Fin 3 → Nat) = fun _ => 0 := funext fun a => by fin_cases a <;> rfl

/-! ## What the region finds in the three staged arrays -/

/-- The staged query array is the query argument times the scale, entry by entry. -/
theorem V_q (c : Dev nD) : (V m c main_v2 : S16x4096x128.Idx → EReal) = fun i => argQ m c i * scaleC := by
  have e : (V m c main_v2 : S16x4096x128.Idx → EReal)
      = truncf .bf16 (mulf (m ((c : Thread nD τ).loc main_arg0)) (broadcastInDim S16x4096x128 ![] bcast_S_S16x4096x128 (constant (F := Ideal) S_ .f32 0x3DB504F3#32))) bitsLt_bf16_f32 := by
    unfold V; after_results
  rw [e]; rfl

/-- The staged key array is the key argument. -/
theorem V_k (c : Dev nD) : (V m c main_v3 : S16x4096x128.Idx → EReal) = argK m c := by
  have e : (V m c main_v3 : S16x4096x128.Idx → EReal)
      = (truncf .bf16 (argK m c : FVec Ideal S16x4096x128 .f32) bitsLt_bf16_f32 : FVec Ideal S16x4096x128 .bf16) := by
    unfold V; after_results
  rw [e]; rfl

/-- The staged value array is the value argument. -/
theorem V_v (c : Dev nD) : (V m c main_v4 : S16x4096x128.Idx → EReal) = argV m c := by
  have e : (V m c main_v4 : S16x4096x128.Idx → EReal)
      = (truncf .bf16 (argV m c : FVec Ideal S16x4096x128 .f32) bitsLt_bf16_f32 : FVec Ideal S16x4096x128 .bf16) := by
    unfold V; after_results
  rw [e]; rfl

/-! ## The block index maps over the grid -/

/-- Point t is head t / 8, query tile t % 8: the query and output windows move with both, the key and value windows with
    the head only. -/
theorem idx_facts : ∀ t : Fin cfg0.N,
    win0_3.index t (0 : Fin 3) = t.val / 8 ∧ win0_3.index t (1 : Fin 3) = t.val % 8 ∧ win0_3.index t (2 : Fin 3) = 0
    ∧ win0_0.index t (0 : Fin 3) = t.val / 8 ∧ win0_0.index t (1 : Fin 3) = t.val % 8 ∧ win0_0.index t (2 : Fin 3) = 0
    ∧ win0_1.index t (0 : Fin 3) = t.val / 8 ∧ win0_1.index t (1 : Fin 3) = 0 ∧ win0_1.index t (2 : Fin 3) = 0
    ∧ win0_2.index t (0 : Fin 3) = t.val / 8 ∧ win0_2.index t (1 : Fin 3) = 0 ∧ win0_2.index t (2 : Fin 3) = 0 :=
  (by decide +kernel : ∀ t : Fin grid0.N, _)

/-! ## The staged blocks read at an element -/

/-- The three staged blocks at point t, as vectors of their literal shapes. -/
abbrev qBlock (c : Dev nD) (t : Fin cfg0.N) : FVec Ideal S1x512x128 .bf16 := iblk m c 0 t
abbrev kBlock (c : Dev nD) (t : Fin cfg0.N) : FVec Ideal S1x4096x128 .bf16 := iblk m c 1 t
abbrev vBlock (c : Dev nD) (t : Fin cfg0.N) : FVec Ideal S1x4096x128 .bf16 := iblk m c 2 t

/-- An entry of the query block at point t is the scaled query argument at head t / 8, row 512·(t % 8) + p. -/
theorem qblk_apply (c : Dev nD) (t : Fin cfg0.N) (u : Fin 1) (p : Fin 512) (e : Fin 128) (b : Fin 16) (n : Fin 4096)
    (hb : b.val = t.val / 8 + u.val) (hn : n.val = (t.val % 8) * 512 + p.val) :
    qBlock m c t (ix3 u p e) = argQ m c (ix3 b n e) * scaleC := by
  obtain ⟨-, -, -, e0, e1, e2, -⟩ := idx_facts t
  have hr : qBlock m c t (ix3 u p e) = (V m c main_v2 : S16x4096x128.Idx → EReal) (ix3 b n e) := by
    show iblk m c _ t _ = _
    unfold iblk
    rw [View.read_apply]
    show (V m c main_v2 : S16x4096x128.Idx → EReal) _ = (V m c main_v2 : S16x4096x128.Idx → EReal) (ix3 b n e)
    refine congrArg (V m c main_v2 : S16x4096x128.Idx → EReal) (funext fun a => Fin.ext ?_)
    match a with
    | ⟨0, _⟩ => show win0_0.index t (0 : Fin 3) * 1 + 1 * u.val = b.val; rw [e0, hb]; omega
    | ⟨1, _⟩ => show win0_0.index t (1 : Fin 3) * 512 + 1 * p.val = n.val; rw [e1, hn]; omega
    | ⟨2, _⟩ => show win0_0.index t (2 : Fin 3) * 128 + 1 * e.val = e.val; rw [e2]; omega
  rw [hr, V_q]

/-- An entry of the key block at point t is the key argument at head t / 8. -/
theorem kblk_apply (c : Dev nD) (t : Fin cfg0.N) (u : Fin 1) (j : Fin 4096) (e : Fin 128) (b : Fin 16)
    (hb : b.val = t.val / 8 + u.val) :
    kBlock m c t (ix3 u j e) = argK m c (ix3 b j e) := by
  obtain ⟨-, -, -, -, -, -, e0, e1, e2, -⟩ := idx_facts t
  have hr : kBlock m c t (ix3 u j e) = (V m c main_v3 : S16x4096x128.Idx → EReal) (ix3 b j e) := by
    show iblk m c _ t _ = _
    unfold iblk
    rw [View.read_apply]
    show (V m c main_v3 : S16x4096x128.Idx → EReal) _ = (V m c main_v3 : S16x4096x128.Idx → EReal) (ix3 b j e)
    refine congrArg (V m c main_v3 : S16x4096x128.Idx → EReal) (funext fun a => Fin.ext ?_)
    match a with
    | ⟨0, _⟩ => show win0_1.index t (0 : Fin 3) * 1 + 1 * u.val = b.val; rw [e0, hb]; omega
    | ⟨1, _⟩ => show win0_1.index t (1 : Fin 3) * 4096 + 1 * j.val = j.val; rw [e1]; omega
    | ⟨2, _⟩ => show win0_1.index t (2 : Fin 3) * 128 + 1 * e.val = e.val; rw [e2]; omega
  rw [hr, V_k]

/-- An entry of the value block at point t is the value argument at head t / 8. -/
theorem vblk_apply (c : Dev nD) (t : Fin cfg0.N) (u : Fin 1) (j : Fin 4096) (d : Fin 128) (b : Fin 16)
    (hb : b.val = t.val / 8 + u.val) :
    vBlock m c t (ix3 u j d) = argV m c (ix3 b j d) := by
  obtain ⟨-, -, -, -, -, -, -, -, -, e0, e1, e2⟩ := idx_facts t
  have hr : vBlock m c t (ix3 u j d) = (V m c main_v4 : S16x4096x128.Idx → EReal) (ix3 b j d) := by
    show iblk m c _ t _ = _
    unfold iblk
    rw [View.read_apply]
    show (V m c main_v4 : S16x4096x128.Idx → EReal) _ = (V m c main_v4 : S16x4096x128.Idx → EReal) (ix3 b j d)
    refine congrArg (V m c main_v4 : S16x4096x128.Idx → EReal) (funext fun a => Fin.ext ?_)
    match a with
    | ⟨0, _⟩ => show win0_2.index t (0 : Fin 3) * 1 + 1 * u.val = b.val; rw [e0, hb]; omega
    | ⟨1, _⟩ => show win0_2.index t (1 : Fin 3) * 4096 + 1 * j.val = j.val; rw [e1]; omega
    | ⟨2, _⟩ => show win0_2.index t (2 : Fin 3) * 128 + 1 * d.val = d.val; rw [e2]; omega
  rw [hr, V_v]

/-! ## What point t writes back -/

/-- The body's value at element (u, p, d) of point t's block is the arrangement at head b, row n, column d', where
    (b, n, d') is that element's place in the result array. -/
theorem block_value (c : Dev nD) (t : Fin cfg0.N) (u : Fin 1) (p : Fin 512) (d : Fin 128) (b : Fin 16) (n : Fin 4096) (d' : Fin 128)
    (hb : b.val = t.val / 8 + u.val) (hn : n.val = (t.val % 8) * 512 + p.val) (hd : d'.val = d.val) :
    Cert.Attn.normLast (fun j : Fin 4096 => ∑ e : Fin 128, qBlock m c t (ix3 u p e) * kBlock m c t (ix3 u j e))
        (fun j : Fin 4096 => vBlock m c t (ix3 u j d))
      = Cert.Attn.scaledFirst scaleC (argQ m c) (argK m c) (argV m c) b n d' := by
  obtain rfl : d' = d := Fin.ext hd
  unfold Cert.Attn.scaledFirst
  have hq : ∀ e : Fin 128, qBlock m c t (ix3 u p e) = argQ m c (ix3 b n e) * scaleC :=
    fun e => qblk_apply m c t u p e b n hb hn
  have hk : ∀ (j : Fin 4096) (e : Fin 128), kBlock m c t (ix3 u j e) = argK m c (ix3 b j e) :=
    fun j e => kblk_apply m c t u j e b hb
  have hv : ∀ j : Fin 4096, vBlock m c t (ix3 u j d') = argV m c (ix3 b j d') :=
    fun j => vblk_apply m c t u j d' b hb
  simp only [hq, hk, hv]

/-- What point t writes back is block t of the arrangement of the argument arrays. -/
theorem flushed_eq (c : Dev nD) (t : Fin cfg0.N) :
    (dats m 0 c).flushed 3 t
      = ((cfg0.win 3).blk t).view.read (Elt Ideal) (Cert.Attn.attnScaledFirst scaleC (argQ m c) (argK m c) (argV m c)) := by
  rw [flushed3]
  unfold out0_3
  rw [View.canon_unit_zero hz]
  simp only [View.ld_unit_zero (S := S1x512x128) hz, View.ld_unit_zero (S := S1x4096x128) hz]
  obtain ⟨e0, e1, e2, -⟩ := idx_facts t
  funext j
  obtain ⟨u, p, d, rfl⟩ : ∃ (u : Fin 1) (p : Fin 512) (d : Fin 128), j = ix3 u p d := ⟨j 0, j 1, j 2, eq_ix3 j⟩
  show k0_pay1 (F := Ideal) (qBlock m c t) (kBlock m c t) (vBlock m c t) (ix3 u p d)
    = Cert.Attn.attnScaledFirst scaleC (argQ m c) (argK m c) (argV m c) (((cfg0.win 3).blk t).view.emb (ix3 u p d))
  refine (Cert.Attn.Block.pay_apply (qBlock m c t) (kBlock m c t) (vBlock m c t) u p d).trans ?_
  refine block_value m c t u p d _ _ _ ?_ ?_ ?_
  · show win0_3.index t (0 : Fin 3) * 1 + 1 * u.val = t.val / 8 + u.val; rw [e0]; omega
  · show win0_3.index t (1 : Fin 3) * 512 + 1 * p.val = (t.val % 8) * 512 + p.val; rw [e1]; omega
  · show win0_3.index t (2 : Fin 3) * 128 + 1 * d.val = d.val; rw [e2]; omega

/-! ## The output blocks tile the result array -/

/-- An index of the array is in point t's block iff each coordinate is in the block's range on its axis. -/
theorem mem_blk (t : Fin cfg0.N) (i : S16x4096x128.Idx) :
    i ∈ ((cfg0.win 3).blk t).view.set ↔ ∀ a : Fin 3, win0_3.index t a * S1x512x128.size a ≤ (i a).val ∧ (i a).val < win0_3.index t a * S1x512x128.size a + S1x512x128.size a := by
  show i ∈ ((View.whole main_v5).slice (win0_3.rect t)).set ↔ _
  rw [View.set_slice_whole, Rect.mem_set_unit]
  exact Iff.rfl

/-- Every index (b, n, d) of the result array is in the block of point 8·b + n / 512, which writes back. -/
theorem cover (i : S16x4096x128.Idx) : ∃ t : Fin cfg0.N, (cfg0.win 3).flush t = true ∧ i ∈ ((cfg0.win 3).blk t).view.set := by
  have hi0 : (i 0).val < 16 := (i 0).isLt
  have hi1 : (i 1).val < 4096 := (i 1).isLt
  have hi2 : (i 2).val < 128 := (i 2).isLt
  have hN : cfg0.N = 128 := N_0
  obtain ⟨t, ht⟩ : ∃ t : Fin cfg0.N, t.val = (i 0).val * 8 + (i 1).val / 512 := ⟨⟨(i 0).val * 8 + (i 1).val / 512, by omega⟩, rfl⟩
  obtain ⟨e0, e1, e2, -⟩ := idx_facts t
  refine ⟨t, flush0_3 t, ?_⟩
  rw [mem_blk]
  intro a
  match a with
  | ⟨0, _⟩ => show win0_3.index t (0 : Fin 3) * 1 ≤ (i 0).val ∧ (i 0).val < win0_3.index t (0 : Fin 3) * 1 + 1; rw [e0, ht]; omega
  | ⟨1, _⟩ => show win0_3.index t (1 : Fin 3) * 512 ≤ (i 1).val ∧ (i 1).val < win0_3.index t (1 : Fin 3) * 512 + 512; rw [e1, ht]; omega
  | ⟨2, _⟩ => show win0_3.index t (2 : Fin 3) * 128 ≤ (i 2).val ∧ (i 2).val < win0_3.index t (2 : Fin 3) * 128 + 128; rw [e2]; omega

/-! ## The result array, and the run -/

/-- After the run the result array holds the "scale first, normalise last" arrangement of the argument arrays. -/
theorem final (c : Dev nD) :
    (dats m 0 c).arrAt 3 cfg0.N = Cert.Attn.attnScaledFirst scaleC (argQ m c) (argK m c) (argV m c) :=
  (dats m 0 c).arrAt_eq_of_cover 3 (Cert.Attn.attnScaledFirst scaleC (argQ m c) (argK m c) (argV m c))
    (fun t _ => flushed_eq m c t) cover

/-- Every weakly fair execution of the program ends with the result array at that arrangement and the arguments
    unchanged. -/
theorem run : θ_run defs (onTc (τ := τ) (main (F := Ideal))) ⟨m, fun _ => 0, ρ⟩ fun r => ∀ c : Dev nD,
      r.2.mem ((c : Thread nD τ).loc main_v5) = Cert.Attn.attnScaledFirst scaleC (argQ m c) (argK m c) (argV m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Cert.KernelIdeal.Value.run_blocks m ρ)

end Cert.Attn.Kernel

end
-- ==== Proof.RefValue.lean ====
/-
  The reference's result read at one element: jnp's attention is the "scale last, normalise first" arrangement of
  AttnSpec. Its program contracts query rows against key rows, multiplies by the scale, takes each row's maximum
  (and once more the maximum with `-∞`, which changes nothing), exponentiates score minus maximum, sums each row, divides
  each exponential by its row's sum, and contracts the quotients against the value rows. Each stage is read at an index
  by the generated reading lemmas; the one stage they leave, the row maximum, is a fold of `max` from `-∞` over the row.
-/
import proofs.«427902_j45440753992364_3_alg».proof.Proof.Gen.ReferenceIdeal.Read
import proofs.«427902_j45440753992364_3_alg».proof.Proof.AttnSpec
import proofs.«427902_j45440753992364_3_alg».proof.Proof.LibRowsRank3
import Idealize.ShloMosaic.PureOps.Reduce
import Idealize.ShloMosaic.PureOps.Ideal.Laws
import Idealize.ShloMosaic.Lib.ValueIdx

noncomputable section

open scoped BigOperators

namespace Cert.Attn.Ref

open Cert.ReferenceIdeal Cert.ReferenceIdeal.Gen Cert.ReferenceIdeal.Read Idealize.ShloMosaic Idealize.ShloMosaic.ValueIdx

/-- The scale both programs use, as the extended real its pattern denotes. -/
abbrev scaleC : EReal := Ideal.ofBits .f32 0x3DB504F3#32

/-- The pattern the row maximum starts from denotes `-∞`. -/
theorem negInf : Ideal.ofBits .f32 0xFF800000#32 = (⊥ : EReal) := by simp [Ideal.ofBits, Ideal.ieee]

/-! ## The generated operand indices are the coordinates one expects -/

theorem lidx0 (b : Fin 16) (n j : Fin 4096) (e : Fin 128) : lidx_main_v0 (ix3 b n j) e = ix3 b n e :=
  funext fun a => Fin.ext (by match a with | ⟨0, _⟩ => rfl | ⟨1, _⟩ => rfl | ⟨2, _⟩ => rfl)
theorem ridx0 (b : Fin 16) (n j : Fin 4096) (e : Fin 128) : ridx_main_v0 (ix3 b n j) e = ix3 b j e :=
  funext fun a => Fin.ext (by match a with | ⟨0, _⟩ => rfl | ⟨1, _⟩ => rfl | ⟨2, _⟩ => rfl)
theorem idx67 (b : Fin 16) (n j : Fin 4096) : idx_main_v6 (idx_main_v7 (ix3 b n j)) = ix2 b n :=
  funext fun a => Fin.ext (by match a with | ⟨0, _⟩ => rfl | ⟨1, _⟩ => rfl)
theorem idx10 (b : Fin 16) (n l : Fin 4096) : idx_main_v10 (ix2 b n) l = ix3 b n l :=
  funext fun a => Fin.ext (by match a with | ⟨0, _⟩ => rfl | ⟨1, _⟩ => rfl | ⟨2, _⟩ => rfl)
theorem idx1112 (b : Fin 16) (n j : Fin 4096) : idx_main_v11 (idx_main_v12 (ix3 b n j)) = ix2 b n :=
  funext fun a => Fin.ext (by match a with | ⟨0, _⟩ => rfl | ⟨1, _⟩ => rfl)
theorem lidx14 (b : Fin 16) (n : Fin 4096) (d : Fin 128) (j : Fin 4096) : lidx_main_v14 (ix3 b n d) j = ix3 b n j :=
  funext fun a => Fin.ext (by match a with | ⟨0, _⟩ => rfl | ⟨1, _⟩ => rfl | ⟨2, _⟩ => rfl)
theorem ridx14 (b : Fin 16) (n : Fin 4096) (d : Fin 128) (j : Fin 4096) : ridx_main_v14 (ix3 b n d) j = ix3 b j d :=
  funext fun a => Fin.ext (by match a with | ⟨0, _⟩ => rfl | ⟨1, _⟩ => rfl | ⟨2, _⟩ => rfl)

/-! ## The stages, at an index -/

section
variable (x0 x1 : Cert.Attn.Arr)

/-- The scaled score of query row (b, n) against key row (b, j). -/
theorem scores_apply (b : Fin 16) (n j : Fin 4096) :
    val_main_v2 (F := Ideal) x0 x1 (ix3 b n j) = (∑ e : Fin 128, x0 (ix3 b n e) * x1 (ix3 b j e)) * scaleC := by
  rw [val_main_v2_apply, val_main_v0_apply, val_main_v1_apply, val_main_cst_apply]
  show (∑ k : Fin 128, x0 (lidx_main_v0 (ix3 b n j) k) * x1 (ridx_main_v0 (ix3 b n j) k)) * scaleC = _
  exact congrArg (· * scaleC) (Finset.sum_congr rfl fun e _ => by rw [lidx0, ridx0])

/-- The row maximum of the scaled scores: the fold of `max` from `-∞` over row (b, n). -/
theorem rowmax_apply (b : Fin 16) (n : Fin 4096) :
    val_main_v3 (F := Ideal) x0 x1 (ix2 b n) = Cert.Attn.rowMax (fun l : Fin 4096 => val_main_v2 (F := Ideal) x0 x1 (ix3 b n l)) := by
  unfold val_main_v3 Cert.Attn.rowMax
  generalize val_main_v2 (F := Ideal) x0 x1 = y
  have hred : S16x4096x4096.Reduces [2] S16x4096 := by decide
  refine (Cert.LibRowsRank3.hostReduce_max_last_apply y (val_main_cst_0 (F := Ideal)) reducesTo_S16x4096x4096_S16x4096_d2 hred h_S_ b n).trans ?_
  have hinit : val_main_cst_0 (F := Ideal) (Shape.Idx.first h_S_) = (⊥ : EReal) := negInf
  rw [hinit]

/-- The maximum taken once more against `-∞`, broadcast along the row. -/
theorem rowmaxB_apply (b : Fin 16) (n j : Fin 4096) :
    val_main_v7 (F := Ideal) x0 x1 (ix3 b n j)
      = max ⊥ (Cert.Attn.rowMax (fun l : Fin 4096 => val_main_v2 (F := Ideal) x0 x1 (ix3 b n l))) := by
  rw [val_main_v7_apply, val_main_v6_apply, idx67, val_main_v5_apply, val_main_v4_apply, val_main_cst_1_apply, rowmax_apply]
  show max (Ideal.ofBits .f32 0xFF800000#32) _ = _
  rw [negInf]

/-- The exponential of the score minus the row maximum. -/
theorem weights_apply (b : Fin 16) (n j : Fin 4096) :
    val_main_v9 (F := Ideal) x0 x1 (ix3 b n j)
      = Ideal.exp (val_main_v2 (F := Ideal) x0 x1 (ix3 b n j)
          - max ⊥ (Cert.Attn.rowMax (fun l : Fin 4096 => val_main_v2 (F := Ideal) x0 x1 (ix3 b n l)))) := by
  rw [val_main_v9_apply, val_main_v8_apply, rowmaxB_apply]
  rfl

/-- The row sum of the exponentials, broadcast along the row. -/
theorem rowsumB_apply (b : Fin 16) (n j : Fin 4096) :
    val_main_v12 (F := Ideal) x0 x1 (ix3 b n j) = ∑ l : Fin 4096, val_main_v9 (F := Ideal) x0 x1 (ix3 b n l) := by
  rw [val_main_v12_apply, val_main_v11_apply, idx1112, val_main_v10_apply, val_main_cst_2_apply]
  show Ideal.ofBits .f32 0x00000000#32 + _ = _
  rw [Ideal.ofBits_zero_f32, zero_add]
  exact Finset.sum_congr rfl fun l _ => by rw [idx10]

end

/-- The reference's result at (b, n, d) is the "scale last, normalise first" arrangement. -/
theorem result_apply (x0 x1 x2 : Cert.Attn.Arr) (b : Fin 16) (n : Fin 4096) (d : Fin 128) :
    val_main_v14 (F := Ideal) x0 x1 x2 (ix3 b n d) = Cert.Attn.scaledLast scaleC x0 x1 x2 b n d := by
  rw [val_main_v14_apply]
  unfold Cert.Attn.scaledLast Cert.Attn.normFirst
  refine Finset.sum_congr rfl fun j _ => ?_
  rw [lidx14, ridx14, val_main_v13_apply, rowsumB_apply]
  simp only [weights_apply, scores_apply]
  rfl

/-- The reference's result array is that arrangement as a whole array. -/
theorem result_eq (x0 x1 x2 : Cert.Attn.Arr) :
    val_main_v14 (F := Ideal) x0 x1 x2 = Cert.Attn.attnScaledLast scaleC x0 x1 x2 := by
  funext i
  obtain ⟨b, n, d, rfl⟩ : ∃ (b : Fin 16) (n : Fin 4096) (d : Fin 128), i = ix3 b n d := ⟨i 0, i 1, i 2, eq_ix3 i⟩
  exact result_apply x0 x1 x2 b n d

end Cert.Attn.Ref

end
-- ==== Proof.lean ====
/-
  The kernel computes attention for 16 heads of 4096 query, key and value rows of width 128: per head,
  softmax(q · kᵀ · c) · v with the scale c = f32(128^(-1/2)).
  The kernel multiplies the query array by c on the host, and on each grid point (a head and a tile of 512 query rows,
  against the head's whole key and value arrays) forms the score rows, subtracts each row's maximum, exponentiates,
  multiplies the exponentials into the value rows and only then divides by the row sums. The reference contracts first and
  multiplies the scores by c, and divides the exponentials by the row sums before multiplying into the value rows.
  Over the extended reals, with every input entry a real number (the precondition) and c a real number, these are one
  function: the scale moves across a finite sum of reals, the row maximum of real scores is real, each exponential is a
  positive real, the row sum is a positive real, and division by it moves across a finite sum of reals.
  The frames of the two kernel programs are their generated frame runs; the reference's frame is its generated run with the
  result dropped; the idealization rewrote nothing, so `preserves` is trivial.
-/
import proofs.«427902_j45440753992364_3_alg».proof.Defs
import proofs.«427902_j45440753992364_3_alg».proof.Proof.Gen.Kernel
import proofs.«427902_j45440753992364_3_alg».proof.Proof.Gen.Kernel.Skeleton
import proofs.«427902_j45440753992364_3_alg».proof.Proof.Gen.Kernel.Launch
import proofs.«427902_j45440753992364_3_alg».proof.Proof.Gen.Kernel.Points
import proofs.«427902_j45440753992364_3_alg».proof.Proof.Gen.Kernel.Frame
import proofs.«427902_j45440753992364_3_alg».proof.Proof.Gen.KernelIdeal
import proofs.«427902_j45440753992364_3_alg».proof.Proof.Gen.KernelIdeal.Skeleton
import proofs.«427902_j45440753992364_3_alg».proof.Proof.Gen.KernelIdeal.Launch
import proofs.«427902_j45440753992364_3_alg».proof.Proof.Gen.KernelIdeal.Points
import proofs.«427902_j45440753992364_3_alg».proof.Proof.Gen.KernelIdeal.Frame
import proofs.«427902_j45440753992364_3_alg».proof.Proof.Gen.ReferenceIdeal
import proofs.«427902_j45440753992364_3_alg».proof.Proof.Gen.Pre_finite_inputs
import proofs.«427902_j45440753992364_3_alg».proof.Proof.Gen.KernelIdeal.Value
import proofs.«427902_j45440753992364_3_alg».proof.Proof.Gen.ReferenceIdeal.Run
import proofs.«427902_j45440753992364_3_alg».proof.Proof.Gen.ReferenceIdeal.Read
import proofs.«427902_j45440753992364_3_alg».proof.Proof.AttnSpec
import proofs.«427902_j45440753992364_3_alg».proof.Proof.ScaleConst
import proofs.«427902_j45440753992364_3_alg».proof.Proof.Finite
import proofs.«427902_j45440753992364_3_alg».proof.Proof.KernelArray
import proofs.«427902_j45440753992364_3_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_kernel : Cert.frame_Kernel := fun m ρ _ => Cert.Kernel.Gen.frame m ρ

/-- The idealized kernel runs and leaves its arguments unchanged. -/
theorem frame_kernelIdeal : Cert.frame_KernelIdeal := fun m ρ _ => Cert.KernelIdeal.Gen.frame m ρ

/-- The idealized reference runs and leaves its arguments unchanged: its run, with the result's value dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the three arguments, every entry of which is a real number, the kernel's result array
    ends at the "scale first, normalise last" arrangement and the reference's at the "scale last, normalise first" one, of
    the same arguments; with real entries and a real scale the two arrangements are equal. -/
theorem algebraic : Cert.algebraic_KernelIdeal_ReferenceIdeal := by
  intro m ρ m' ρ' hpre hagree
  refine ⟨fun c => Cert.Attn.attnScaledFirst Cert.Attn.Kernel.scaleC (Cert.Attn.Kernel.argQ m c) (Cert.Attn.Kernel.argK m c)
    (Cert.Attn.Kernel.argV m c), Cert.Attn.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v14_eq, Cert.Attn.Ref.result_eq, (hagree c).1, (hagree c).2.1, (hagree c).2.2]
  obtain ⟨hq, hk, hv⟩ := Cert.Attn.Finite.real_of_pre _ _ _ (hpre c)
  exact (Cert.Attn.attnScaledFirst_eq_attnScaledLast _ _ _ _ Cert.Attn.scale_real hq hk hv).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
